-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S1024x3072 : Shape := ⟨2, ![1024, 3072]⟩
abbrev S1024 : Shape := ⟨1, ![1024]⟩
abbrev S1024x1024 : Shape := ⟨2, ![1024, 1024]⟩
abbrev S10x100x1024 : Shape := ⟨3, ![10, 100, 1024]⟩
abbrev S10x100 : Shape := ⟨2, ![10, 100]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x100x1024 : S_.BroadcastsInDim S10x100x1024 (![] : Fin 0 → Fin S10x100x1024.rank)
  reducesTo_S10x100x1024_S_d0_1_2 : S10x100x1024.ReducesTo [0, 1, 2] S_
  bcast_S_S10x100 : S_.BroadcastsInDim S10x100 (![] : Fin 0 → Fin S10x100.rank)
  reducesTo_S10x100_S_d0_1 : S10x100.ReducesTo [0, 1] S_

variable [Facts]

def fn_part1 {F : FTy → Type} [FloatOps F] (main_arg4 : FVec F S1024 .f32) (main_arg5 : FVec F S10x100x1024 .f32) (main_arg6 : FVec F S10x100 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S10x100x1024 .f32 := Host.absf main_arg5
  let main_cst_8 : FVec F S_ .f32 := constant S_ .f32 0x7F800000#32
  let main_v25 : FVec F S10x100x1024 .f32 := broadcastInDim S10x100x1024 ![] bcast_S_S10x100x1024 main_cst_8
  let main_v26 : IVec S10x100x1024 1 := cmpf .olt main_v24 main_v25
  let main_c_9 : IVec S_ 1 := constantI S_ 1 1#1
  let main_v27 : IVec S_ 1 := (fun x v => Host.reduce IntOp.andi x v reducesTo_S10x100x1024_S_d0_1_2 h_S_) main_v26 main_c_9
  let main_v28 : IVec S_ 1 := andi main_v23 main_v27
  let main_v29 : FVec F S10x100 .f32 := Host.absf main_arg6
  let main_cst_10 : FVec F S_ .f32 := constant S_ .f32 0x7F800000#32
  let main_v30 : FVec F S10x100 .f32 := broadcastInDim S10x100 ![] bcast_S_S10x100 main_cst_10
  let main_v31 : IVec S10x100 1 := cmpf .olt main_v29 main_v30
  let main_c_11 : IVec S_ 1 := constantI S_ 1 1#1
  let main_v32 : IVec S_ 1 := (fun x v => Host.reduce IntOp.andi x v reducesTo_S10x100_S_d0_1 h_S_) main_v31 main_c_11
  let main_v33 : IVec S_ 1 := andi main_v28 main_v32
  main_v33

def fn {F : FTy → Type} [FloatOps F] (main_arg0 : FVec F S16384x3072 .f32) (main_arg1 : FVec F S1024x3072 .f32) (main_arg2 : FVec F S1024 .f32) (main_arg3 : FVec F S1024x1024 .f32) (main_arg4 : FVec F S1024 .f32) (main_arg5 : FVec F S10x100x1024 .f32) (main_arg6 : FVec F S10x100 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16384x3072 : Shape := ⟨2, ![16384, 3072]⟩
abbrev S1024x3072 : Shape := ⟨2, ![1024, 3072]⟩
abbrev S1024 : Shape := ⟨1, ![1024]⟩
abbrev S1024x1024 : Shape := ⟨2, ![1024, 1024]⟩
abbrev S10x100x1024 : Shape := ⟨3, ![10, 100, 1024]⟩
abbrev S10x100 : Shape := ⟨2, ![10, 100]⟩
abbrev S_ : Shape := ⟨0, ![]⟩
abbrev S1024x1 : Shape := ⟨2, ![1024, 1]⟩
abbrev S3072x1024 : Shape := ⟨2, ![3072, 1024]⟩
abbrev S1000x1024 : Shape := ⟨2, ![1000, 1024]⟩
abbrev S1024x1000 : Shape := ⟨2, ![1024, 1000]⟩
abbrev S1x1024 : Shape := ⟨2, ![1, 1024]⟩
abbrev S1x1000 : Shape := ⟨2, ![1, 1000]⟩
abbrev S16384x1000 : Shape := ⟨2, ![16384, 1000]⟩
abbrev S256x3072 : Shape := ⟨2, ![256, 3072]⟩
abbrev S256x1000 : Shape := ⟨2, ![256, 1000]⟩
abbrev S256x1024 : Shape := ⟨2, ![256, 1024]⟩

abbrev nBuf : Space → Nat
  | .hbm => 64
  | .vmem => 10
  | .smem => 0
  | _ => 0

abbrev bufTy : (tb : Table) → Fin (tcTables nBuf tb) → BufTy
  | .hbm, ⟨0, _⟩ => ⟨S16384x3072, .f32⟩
  | .hbm, ⟨1, _⟩ => ⟨S1024x3072, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S10x100x1024, .f32⟩
  | .hbm, ⟨6, _⟩ => ⟨S10x100, .f32⟩
  | .hbm, ⟨7, _⟩ => ⟨S1024x3072, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x3072, .f32⟩
  | .hbm, ⟨18, _⟩ => ⟨S1024x3072, .f32⟩
  | .hbm, ⟨19, _⟩ => ⟨S1024x3072, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x3072, .f32⟩
  | .hbm, ⟨24, _⟩ => ⟨S1024x3072, .f32⟩
  | .hbm, ⟨25, _⟩ => ⟨S_, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S1024x3072, .f32⟩
  | .hbm, ⟨30, _⟩ => ⟨S1024x1024, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S3072x1024, .f32⟩
  | .hbm, ⟨54, _⟩ => ⟨S3072x1024, .bf16⟩
  | .hbm, ⟨55, _⟩ => ⟨S1024x1024, .f32⟩
  | .hbm, ⟨56, _⟩ => ⟨S1024x1024, .bf16⟩
  | .hbm, ⟨57, _⟩ => ⟨S1000x1024, .f32⟩
  | .hbm, ⟨58, _⟩ => ⟨S1024x1000, .f32⟩
  | .hbm, ⟨59, _⟩ => ⟨S1024x1000, .bf16⟩
  | .hbm, ⟨60, _⟩ => ⟨S1x1024, .f32⟩
  | .hbm, ⟨61, _⟩ => ⟨S1x1024, .f32⟩
  | .hbm, ⟨62, _⟩ => ⟨S1x1000, .f32⟩
  | .hbm, ⟨63, _⟩ => ⟨S16384x1000, .f32⟩
  | .local _ .vmem, ⟨0, _⟩ => ⟨S256x3072, .f32⟩
  | .local _ .vmem, ⟨1, _⟩ => ⟨S256x3072, .f32⟩
  | .local _ .vmem, ⟨2, _⟩ => ⟨S3072x1024, .bf16⟩
  | .local _ .vmem, ⟨3, _⟩ => ⟨S1024x1024, .bf16⟩
  | .local _ .vmem, ⟨4, _⟩ => ⟨S1024x1000, .bf16⟩
  | .local _ .vmem, ⟨5, _⟩ => ⟨S1x1024, .f32⟩
  | .local _ .vmem, ⟨6, _⟩ => ⟨S1x1024, .f32⟩
  | .local _ .vmem, ⟨7, _⟩ => ⟨S1x1000, .f32⟩
  | .local _ .vmem, ⟨8, _⟩ => ⟨S256x1000, .f32⟩
  | .local _ .vmem, ⟨9, _⟩ => ⟨S256x1000, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_v4 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_cst_2 : Ref sig .tc := ⟨.hbm, 20, rfl⟩
abbrev main_call0_cst_3 : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_v4 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst_4 : Ref sig .tc := ⟨.hbm, 31, rfl⟩
abbrev main_call0_v14 : Ref sig .tc := ⟨.hbm, 32, rfl⟩
abbrev main_call0_v15 : Ref sig .tc := ⟨.hbm, 33, rfl⟩
abbrev main_call0_cst_5 : Ref sig .tc := ⟨.hbm, 34, rfl⟩
abbrev main_call0_v16 : Ref sig .tc := ⟨.hbm, 35, rfl⟩
abbrev main_call0_v17 : Ref sig .tc := ⟨.hbm, 36, rfl⟩
abbrev main_call0_cst_6 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_cst_7 : Ref sig .tc := ⟨.hbm, 43, rfl⟩
abbrev main_call0_cst_8 : Ref sig .tc := ⟨.hbm, 44, rfl⟩
abbrev main_call0_call3_v0 : Ref sig .tc := ⟨.hbm, 45, rfl⟩
abbrev main_call0_call3_v1 : Ref sig .tc := ⟨.hbm, 46, rfl⟩
abbrev main_call0_call3_v2 : Ref sig .tc := ⟨.hbm, 47, rfl⟩
abbrev main_call0_call3_v3 : Ref sig .tc := ⟨.hbm, 48, rfl⟩
abbrev main_call0_call3_v4 : Ref sig .tc := ⟨.hbm, 49, rfl⟩
abbrev main_call0_v23 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S1024x3072_S1024_d1 : S1024x3072.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x3072_0_1 : S1024x1.BroadcastsInDim S1024x3072 (![0, 1] : Fin 2 → Fin S1024x3072.rank)
  bcast_S_S1024x3072 : S_.BroadcastsInDim S1024x3072 (![] : Fin 0 → Fin S1024x3072.rank)
  reducesTo_S1024x1024_S1024_d1 : S1024x1024.ReducesTo [1] S1024
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x3072_S3072x1024_1_0 : S1024x3072.Transposes [1, 0] S3072x1024
  bitsLt_bf16_f32 : FTy.bits .bf16 < FTy.bits .f32
  transposes_S1024x1024_S1024x1024_1_0 : S1024x1024.Transposes [1, 0] S1024x1024
  shapeCasts_S10x100x1024_S1000x1024 : S10x100x1024.ShapeCasts S1000x1024
  transposes_S1000x1024_S1024x1000_1_0 : S1000x1024.Transposes [1, 0] S1024x1000
  shapeCasts_S1024_S1x1024 : S1024.ShapeCasts S1x1024
  shapeCasts_S10x100_S1x1000 : S10x100.ShapeCasts S1x1000
  inb_S256x3072_S256x3072_0_0 : ∀ a, (![0, 0] : Fin 2 → Nat) a + S256x3072.size a ≤ S256x3072.size a
  h_S256x3072 : 0 < S256x3072.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S256x1000_S256x1000_0_0 : ∀ a, (![0, 0] : Fin 2 → Nat) a + S256x1000.size a ≤ S256x1000.size a
  h_S256x1000 : 0 < S256x1000.numel
  dot_S256x3072_S3072x1024_S256x1024_1_0_0_1_n_n_wf : DotDims.WF S256x3072 S3072x1024 S256x1024 [1] [0] [0] [1] [] []
  dot_S256x1024_S1024x1024_S256x1024_1_0_0_1_n_n_wf : DotDims.WF S256x1024 S1024x1024 S256x1024 [1] [0] [0] [1] [] []
  dot_S256x1024_S1024x1000_S256x1000_1_0_0_1_n_n_wf : DotDims.WF S256x1024 S1024x1000 S256x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S16384x3072.size a
  hwx0_0 : ∀ i : grid0.Coords, EltTy.bits .f32 = 32 ∨ (Rect.block (s := S16384x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S1024x1000.size a
  hwx0_3 : ∀ i : grid0.Coords, EltTy.bits .bf16 = 32 ∨ (Rect.block (s := S1024x1000) S1024x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1000.size a ≤ S16384x1000.size a
  hwx0_7 : ∀ i : grid0.Coords, EltTy.bits .f32 = 32 ∨ (Rect.block (s := S16384x1000) S256x1000.size (cc0_transform_7 i) (hinb0_7 i)).WholeWords (EltTy.packing .f32)

variable [Facts₀]

def dot_S256x3072_S3072x1024_S256x1024_1_0_0_1_n_n : DotDims S256x3072 S3072x1024 S256x1024 where
  lhsContracting := [1]
  rhsContracting := [0]
  lhsNonContracting := [0]
  rhsNonContracting := [1]
  lhsBatch := []
  rhsBatch := []
  wf := dot_S256x3072_S3072x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1000_S256x1000_1_0_0_1_n_n : DotDims S256x1024 S1024x1000 S256x1000 where
  lhsContracting := [1]
  rhsContracting := [0]
  lhsNonContracting := [0]
  rhsNonContracting := [1]
  lhsBatch := []
  rhsBatch := []
  wf := dot_S256x1024_S1024x1000_S256x1000_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v27) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v29) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v32) S1024x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v33) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v34) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v35) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x1000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x3072 : Shape := ⟨2, ![16384, 3072]⟩
abbrev S1024x3072 : Shape := ⟨2, ![1024, 3072]⟩
abbrev S1024 : Shape := ⟨1, ![1024]⟩
abbrev S1024x1024 : Shape := ⟨2, ![1024, 1024]⟩
abbrev S10x100x1024 : Shape := ⟨3, ![10, 100, 1024]⟩
abbrev S10x100 : Shape := ⟨2, ![10, 100]⟩
abbrev S_ : Shape := ⟨0, ![]⟩
abbrev S1024x1 : Shape := ⟨2, ![1024, 1]⟩
abbrev S3072x1024 : Shape := ⟨2, ![3072, 1024]⟩
abbrev S16384x1024 : Shape := ⟨2, ![16384, 1024]⟩
abbrev S1x1024 : Shape := ⟨2, ![1, 1024]⟩
abbrev S16384x10x100 : Shape := ⟨3, ![16384, 10, 100]⟩
abbrev S1x10x100 : Shape := ⟨3, ![1, 10, 100]⟩
abbrev S16384x1000 : Shape := ⟨2, ![16384, 1000]⟩

abbrev nBuf : Space → Nat
  | .hbm => 78
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S1024x3072, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S10x100x1024, .f32⟩
  | .hbm, ⟨6, _⟩ => ⟨S10x100, .f32⟩
  | .hbm, ⟨7, _⟩ => ⟨S1024x3072, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x3072, .f32⟩
  | .hbm, ⟨18, _⟩ => ⟨S1024x3072, .f32⟩
  | .hbm, ⟨19, _⟩ => ⟨S1024x3072, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x3072, .f32⟩
  | .hbm, ⟨24, _⟩ => ⟨S1024x3072, .f32⟩
  | .hbm, ⟨25, _⟩ => ⟨S_, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S1024x3072, .f32⟩
  | .hbm, ⟨30, _⟩ => ⟨S1024x3072, .f32⟩
  | .hbm, ⟨31, _⟩ => ⟨S1024x3072, .f32⟩
  | .hbm, ⟨32, _⟩ => ⟨S3072x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x10x100, .f32⟩
  | .hbm, ⟨74, _⟩ => ⟨S1x10x100, .f32⟩
  | .hbm, ⟨75, _⟩ => ⟨S16384x10x100, .f32⟩
  | .hbm, ⟨76, _⟩ => ⟨S16384x10x100, .f32⟩
  | .hbm, ⟨77, _⟩ => ⟨S16384x1000, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_cst_8 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call5_cst : Ref sig .tc := ⟨.hbm, 70, rfl⟩
abbrev main_call5_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  reducesTo_S1024x3072_S1024_d1 : S1024x3072.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x3072_0_1 : S1024x1.BroadcastsInDim S1024x3072 (![0, 1] : Fin 2 → Fin S1024x3072.rank)
  bcast_S_S1024x3072 : S_.BroadcastsInDim S1024x3072 (![] : Fin 0 → Fin S1024x3072.rank)
  transposes_S1024x3072_S3072x1024_1_0 : S1024x3072.Transposes [1, 0] S3072x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S1024x1024_S1024_d1 : S1024x1024.ReducesTo [1] S1024
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  bcast_S10x100_S1x10x100_1_2 : S10x100.BroadcastsInDim S1x10x100 (![1, 2] : Fin 2 → Fin S1x10x100.rank)
  bcast_S1x10x100_S16384x10x100_0_1_2 : S1x10x100.BroadcastsInDim S16384x10x100 (![0, 1, 2] : Fin 3 → Fin S16384x10x100.rank)
  shapeCasts_S16384x10x100_S16384x1000 : S16384x10x100.ShapeCasts S16384x1000
  dot_S16384x3072_S3072x1024_S16384x1024_1_0_0_1_n_n_wf : DotDims.WF S16384x3072 S3072x1024 S16384x1024 [1] [0] [0] [1] [] []
  dot_S16384x1024_S1024x1024_S16384x1024_1_0_0_1_n_n_wf : DotDims.WF S16384x1024 S1024x1024 S16384x1024 [1] [0] [0] [1] [] []
  dot_S16384x1024_S10x100x1024_S16384x10x100_1_2_0_01_n_n_wf : DotDims.WF S16384x1024 S10x100x1024 S16384x10x100 [1] [2] [0] [0, 1] [] []

variable [Facts₀]

def dot_S16384x3072_S3072x1024_S16384x1024_1_0_0_1_n_n : DotDims S16384x3072 S3072x1024 S16384x1024 where
  lhsContracting := [1]
  rhsContracting := [0]
  lhsNonContracting := [0]
  rhsNonContracting := [1]
  lhsBatch := []
  rhsBatch := []
  wf := dot_S16384x3072_S3072x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S10x100x1024_S16384x10x100_1_2_0_01_n_n : DotDims S16384x1024 S10x100x1024 S16384x10x100 where
  lhsContracting := [1]
  rhsContracting := [2]
  lhsNonContracting := [0]
  rhsNonContracting := [0, 1]
  lhsBatch := []
  rhsBatch := []
  wf := dot_S16384x1024_S10x100x1024_S16384x10x100_1_2_0_01_n_n_wf

class Facts : Prop extends Facts₀ where

variable [Facts]
-- ==== Proof.Spec.lean ====
/-
  The function both programs compute, as one formula per output entry.

  A three-layer perceptron applied to one row of the input: with `z` the float zero,
    h1[j]  = max (∑ k1, X[k1] · W1[k1, j] + B1[j]) z
    h2[j]  = max (∑ k2, h1[k2] · W2[k2, j] + B2[j]) z
    out    = ∑ k3, h2[k3] · W3[k3] + B3
  (`mlp`), and the whole result array `G`: entry (r, col) applies `mlp` to row r of the input, with the first two weight
  matrices given output-channel-major (row j of `Q1` is the weights into hidden unit j) and the last layer's weights and
  bias given per head t and class c, where col = 100 · t + c.
  Also the one law of the extended reals the comparison needs: adding back what was subtracted from a REAL number.
-/
import Idealize.ShloMosaic.PureOps.Ideal
import Idealize.ShloMosaic.Lib.ValueIdx

noncomputable section

namespace Cert.MlpSpec

open Idealize.ShloMosaic Idealize.ShloMosaic.ValueIdx

/-- The float zero both programs clamp against (kept as its bit pattern: the same word on both sides). -/
abbrev z : EReal := Ideal.ofBits .f32 0x00000000#32

/-- One output entry: three affine layers over one input row `X`, the first two followed by a clamp at zero from below. -/
def mlp (X : Fin 3072 → EReal) (W1 : Fin 3072 → Fin 1024 → EReal) (B1 : Fin 1024 → EReal)
    (W2 : Fin 1024 → Fin 1024 → EReal) (B2 : Fin 1024 → EReal) (W3 : Fin 1024 → EReal) (B3 : EReal) : EReal :=
  (∑ k3 : Fin 1024, max ((∑ k2 : Fin 1024, max ((∑ k1 : Fin 3072, X k1 * W1 k1 k2) + B1 k2) z * W2 k2 k3) + B2 k3) z * W3 k3) + B3

/-- `mlp` depends on its seven arguments only through their values. -/
theorem mlp_congr {X X' : Fin 3072 → EReal} {W1 W1' : Fin 3072 → Fin 1024 → EReal} {B1 B1' : Fin 1024 → EReal}
    {W2 W2' : Fin 1024 → Fin 1024 → EReal} {B2 B2' : Fin 1024 → EReal} {W3 W3' : Fin 1024 → EReal} {B3 B3' : EReal}
    (hX : ∀ k, X k = X' k) (hW1 : ∀ k j, W1 k j = W1' k j) (hB1 : ∀ j, B1 j = B1' j) (hW2 : ∀ k j, W2 k j = W2' k j)
    (hB2 : ∀ j, B2 j = B2' j) (hW3 : ∀ k, W3 k = W3' k) (hB3 : B3 = B3') :
    mlp X W1 B1 W2 B2 W3 B3 = mlp X' W1' B1' W2' B2' W3' B3' := by
  have e1 : X = X' := funext hX
  have e2 : W1 = W1' := funext fun k => funext (hW1 k)
  have e3 : B1 = B1' := funext hB1
  have e4 : W2 = W2' := funext fun k => funext (hW2 k)
  have e5 : B2 = B2' := funext hB2
  have e6 : W3 = W3' := funext hW3
  rw [e1, e2, e3, e4, e5, e6, hB3]

/-- The head an output column belongs to: col = 100 · t + c with t < 10. -/
def headT (i : (⟨2, ![16384, 1000]⟩ : Shape).Idx) : Fin 10 :=
  ⟨(i 1).val / 100, by have := idx2_lt1 i; omega⟩

/-- The class within its head: c = col mod 100. -/
def headC (i : (⟨2, ![16384, 1000]⟩ : Shape).Idx) : Fin 100 :=
  ⟨(i 1).val % 100, Nat.mod_lt _ (by decide)⟩

/-- The whole result: entry (r, col) is `mlp` of input row r, hidden weights `Q1`, `Q2` (output-channel-major) and
    biases `b1`, `b2`, and head (t, c)'s weight row and bias, col = 100 · t + c. -/
def G (x : (⟨2, ![16384, 3072]⟩ : Shape).Idx → EReal) (Q1 : (⟨2, ![1024, 3072]⟩ : Shape).Idx → EReal)
    (b1 : (⟨1, ![1024]⟩ : Shape).Idx → EReal) (Q2 : (⟨2, ![1024, 1024]⟩ : Shape).Idx → EReal)
    (b2 : (⟨1, ![1024]⟩ : Shape).Idx → EReal) (hw : (⟨3, ![10, 100, 1024]⟩ : Shape).Idx → EReal)
    (hb : (⟨2, ![10, 100]⟩ : Shape).Idx → EReal) : (⟨2, ![16384, 1000]⟩ : Shape).Idx → EReal :=
  fun i => mlp (fun k1 => x (ix2 (i 0) k1)) (fun k1 k2 => Q1 (ix2 k2 k1)) (fun k2 => b1 (ix1 k2))
    (fun k2 k3 => Q2 (ix2 k3 k2)) (fun k3 => b2 (ix1 k3)) (fun k3 => hw (ix3 (headT i) (headC i) k3)) (hb (ix2 (headT i) (headC i)))

/-- Adding back to a REAL number `w` the difference `q - w` gives `q`, for every extended real `q` (at `q = ±∞` the
    difference and the sum are that infinity; it is `w` that must be finite). -/
theorem real_add_sub_cancel (w : ℝ) (q : EReal) : (w : EReal) + (q - (w : EReal)) = q := by
  induction q using EReal.rec with
  | bot => simp
  | coe r => rw [← EReal.coe_sub, ← EReal.coe_add]; exact congrArg _ (by ring)
  | top => simp

end Cert.MlpSpec

end
-- ==== Proof.Finite.lean ====
/-
  What the precondition says of the two hidden weight matrices: every entry is a real number.

  The precondition is the conjunction, over the seven inputs, of "every entry's absolute value is below +∞". A
  conjunction of bits that is one has every conjunct one; an `all` that is one has every entry's bit one; and an
  extended real whose absolute value `max x (-x)` is below +∞ is neither infinity, so it is a real.
-/
import proofs.«106709_j30940944400880_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

variable [Facts]
open Facts

/-- The rank-0 shape has one index. -/
instance : Subsingleton S_.Idx := ⟨fun a b => funext fun d => d.elim0⟩

/-- An extended real whose absolute value is below +∞ (the float pattern 0x7F800000) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- An array all of whose "absolute value below +∞" bits are one holds real numbers. -/
theorem reals_of_all {s : Shape} (a : FVec Ideal s .f32) (hb : S_.BroadcastsInDim s (![] : Fin 0 → Fin s.rank))
    {axes : List (Fin s.rank)} (hred : s.ReducesTo axes S_)
    (e : Host.reduce IntOp.andi (cmpf .olt (Host.absf a) (broadcastInDim s ![] hb (constant S_ .f32 0x7F800000#32)))
          (constantI S_ 1 1#1) hred h_S_ ix0 = 1#1) (i : s.Idx) : ∃ r : ℝ, a i = (r : EReal) :=
  real_of_abs_lt_inf (a i) (Host.reduce_andi_all _ _ hred h_S_ ix0 e i)

/-- Under the precondition the first and the second hidden weight matrix hold real numbers. -/
theorem weights_real (a0 : FVec Ideal S16384x3072 .f32) (a1 : FVec Ideal S1024x3072 .f32) (a2 : FVec Ideal S1024 .f32)
    (a3 : FVec Ideal S1024x1024 .f32) (a4 : FVec Ideal S1024 .f32) (a5 : FVec Ideal S10x100x1024 .f32)
    (a6 : FVec Ideal S10x100 .f32) (h : fn (F := Ideal) a0 a1 a2 a3 a4 a5 a6 = fun _ => 1#1) :
    (∀ i, ∃ r : ℝ, a1 i = (r : EReal)) ∧ (∀ i, ∃ r : ℝ, a3 i = (r : EReal)) := by
  have h0 := congrFun h ix0
  dsimp only [fn, fn_part1] at h0
  obtain ⟨h28, -⟩ := IntOp.andi_eq_one.1 h0
  obtain ⟨h23, -⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨-, h7⟩ := IntOp.andi_eq_one.1 h8
  exact ⟨fun i => reals_of_all a1 bcast_S_S1024x3072 reducesTo_S1024x3072_S_d0_1 h7 i,
    fun i => reals_of_all a3 bcast_S_S1024x1024 reducesTo_S1024x1024_S_d0_1 h17 i⟩

end Cert.Pre_finite_inputs.Finite

end
-- ==== Proof.RefSide.lean ====
/-
  The reference's result, read entry by entry, is the specification `MlpSpec.G` of its arguments, with the two hidden
  weight matrices the QUANTISED ones (the stages `val_main_v12` of the first weight matrix and `val_main_v33` of the
  second, never opened here).

  The reference forms each hidden weight as `w + (q - w)` (the straight-through form of the quantiser); for a real
  `w` that is `q` (`MlpSpec.real_add_sub_cancel`), so the hypotheses are that the two weight matrices hold real numbers.
  Everything else is reading the operations one at a time: the three `dot_general`s as sums over the contracted axis,
  the transposes and broadcasts as index maps, and the final reshape [16384, 10, 100] → [16384, 1000], under which
  column col is head col / 100, class col % 100.
-/
import proofs.«106709_j30940944400880_1_alg».proof.Proof.Gen.ReferenceIdeal.Read
import proofs.«106709_j30940944400880_1_alg».proof.Proof.Spec

noncomputable section

namespace Cert.ReferenceIdeal.RefValue

open Cert.ReferenceIdeal Cert.ReferenceIdeal.Read Idealize.ShloMosaic Idealize.ShloMosaic.ValueIdx Cert.MlpSpec

/-! ## Coordinates of the indices built by `ix2` / `ix3` -/

theorem ix2_at0 {n0 n1 : Nat} (a : Fin n0) (b : Fin n1) : (ix2 a b) 0 = a := rfl
theorem ix2_at1 {n0 n1 : Nat} (a : Fin n0) (b : Fin n1) : (ix2 a b) 1 = b := rfl
theorem ix3_at0 {n0 n1 n2 : Nat} (a : Fin n0) (b : Fin n1) (c : Fin n2) : (ix3 a b c) 0 = a := rfl
theorem ix3_at1 {n0 n1 n2 : Nat} (a : Fin n0) (b : Fin n1) (c : Fin n2) : (ix3 a b c) 1 = b := rfl
theorem ix3_at2 {n0 n1 n2 : Nat} (a : Fin n0) (b : Fin n1) (c : Fin n2) : (ix3 a b c) 2 = c := rfl

/-! ## The operand indices of each operation, from coordinates -/

/-- First product, left operand: row of the output entry, contracted position. -/
theorem lidx16_eq (j : S16384x1024.Idx) (k : Fin 3072) : lidx_main_v16 j k = (ix2 (j 0) k : S16384x3072.Idx) :=
  funext fun a => Fin.ext (by match a with | ⟨0, _⟩ => rfl | ⟨1, _⟩ => rfl)
/-- First product, right operand through the transpose: hidden unit (the output entry's column), contracted position. -/
theorem ridx16_eq (j : S16384x1024.Idx) (k : Fin 3072) : idx_main_v15 (ridx_main_v16 j k) = (ix2 (j 1) k : S1024x3072.Idx) :=
  funext fun a => Fin.ext (by match a with | ⟨0, _⟩ => rfl | ⟨1, _⟩ => rfl)
/-- First bias, broadcast along the rows: the output entry's column. -/
theorem bidx18_eq (j : S16384x1024.Idx) : idx_main_v17 (idx_main_v18 j) = (ix1 (j 1) : S1024.Idx) :=
  funext fun a => Fin.ext (by match a with | ⟨0, _⟩ => rfl)
theorem lidx37_eq (j : S16384x1024.Idx) (k : Fin 1024) : lidx_main_v37 j k = (ix2 (j 0) k : S16384x1024.Idx) :=
  funext fun a => Fin.ext (by match a with | ⟨0, _⟩ => rfl | ⟨1, _⟩ => rfl)
theorem ridx37_eq (j : S16384x1024.Idx) (k : Fin 1024) : idx_main_v36 (ridx_main_v37 j k) = (ix2 (j 1) k : S1024x1024.Idx) :=
  funext fun a => Fin.ext (by match a with | ⟨0, _⟩ => rfl | ⟨1, _⟩ => rfl)
theorem bidx39_eq (j : S16384x1024.Idx) : idx_main_v38 (idx_main_v39 j) = (ix1 (j 1) : S1024.Idx) :=
  funext fun a => Fin.ext (by match a with | ⟨0, _⟩ => rfl)
/-- Third product: the left operand at (row, contracted position), the head weights at (head, class, contracted position). -/
theorem lidx42_eq (j : S16384x10x100.Idx) (k : Fin 1024) : lidx_main_v42 j k = (ix2 (j 0) k : S16384x1024.Idx) :=
  funext fun a => Fin.ext (by match a with | ⟨0, _⟩ => rfl | ⟨1, _⟩ => rfl)
theorem ridx42_eq (j : S16384x10x100.Idx) (k : Fin 1024) : ridx_main_v42 j k = (ix3 (j 1) (j 2) k : S10x100x1024.Idx) :=
  funext fun a => Fin.ext (by match a with | ⟨0, _⟩ => rfl | ⟨1, _⟩ => rfl | ⟨2, _⟩ => rfl)
theorem bidx44_eq (j : S16384x10x100.Idx) : idx_main_v43 (idx_main_v44 j) = (ix2 (j 1) (j 2) : S10x100.Idx) :=
  funext fun a => Fin.ext (by match a with | ⟨0, _⟩ => rfl | ⟨1, _⟩ => rfl)

/-- Under the final reshape, entry (r, col) of the result is entry (r, col / 100, col % 100) of the rank-3 array. -/
theorem idx46_at0 (i : S16384x1000.Idx) : (idx_main_v46 i) 0 = i 0 :=
  Fin.ext (by have h1 : (i 1).val < 1000 := (i 1).isLt; show ((i 0).val * 1000 + (i 1).val) / 1000 = (i 0).val; omega)
theorem idx46_at1 (i : S16384x1000.Idx) : (idx_main_v46 i) 1 = headT i :=
  Fin.ext (by have h1 : (i 1).val < 1000 := (i 1).isLt; show ((i 0).val * 1000 + (i 1).val) / 100 % 10 = (i 1).val / 100; omega)
theorem idx46_at2 (i : S16384x1000.Idx) : (idx_main_v46 i) 2 = headC i :=
  Fin.ext (by show ((i 0).val * 1000 + (i 1).val) % 100 = (i 1).val % 100; omega)

/-! ## The reference is the specification -/

/-- The reference's result array is `G` of the input, the quantised hidden weights and the remaining arguments, when the
    two hidden weight matrices hold real numbers. -/
theorem ref_eq_G (x0 : (⟨S16384x3072, .f32⟩ : BufTy).Contents (Elt Ideal)) (x1 : (⟨S1024x3072, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S10x100x1024, .f32⟩ : BufTy).Contents (Elt Ideal))
    (x6 : (⟨S10x100, .f32⟩ : BufTy).Contents (Elt Ideal))
    (h1 : ∀ j, ∃ r : ℝ, x1 j = (r : EReal)) (h3 : ∀ j, ∃ r : ℝ, x3 j = (r : EReal)) :
    val_main_v46 (F := Ideal) x0 x1 x2 x3 x4 x5 x6
      = G x0 (val_main_v12 (F := Ideal) x1) x2 (val_main_v33 (F := Ideal) x3) x4 x5 x6 := by
  have hq1 : ∀ j, x1 j + (val_main_v12 (F := Ideal) x1 j - x1 j) = val_main_v12 (F := Ideal) x1 j := fun j => by
    obtain ⟨r, hr⟩ := h1 j; rw [hr]; exact real_add_sub_cancel r _
  have hq3 : ∀ j, x3 j + (val_main_v33 (F := Ideal) x3 j - x3 j) = val_main_v33 (F := Ideal) x3 j := fun j => by
    obtain ⟨r, hr⟩ := h3 j; rw [hr]; exact real_add_sub_cancel r _
  funext i
  rw [val_main_v46_apply, val_main_v45_apply, val_main_v42_apply, val_main_v44_apply, val_main_v43_apply]
  simp only [val_main_v41_apply, val_main_v40_apply, val_main_v37_apply, val_main_v39_apply, val_main_v38_apply,
    val_main_v36_apply, val_main_v35_apply, val_main_v34_apply, val_main_v20_apply, val_main_v19_apply, val_main_v16_apply,
    val_main_v18_apply, val_main_v17_apply, val_main_v15_apply, val_main_v14_apply, val_main_v13_apply,
    val_main_call5_v0_apply, val_main_call5_cst_apply, val_main_call2_v0_apply, val_main_call2_cst_apply,
    Ideal.addf_def, Ideal.subf_def, Ideal.maximumf_def, Ideal.ofBits_def,
    lidx16_eq, ridx16_eq, bidx18_eq, lidx37_eq, ridx37_eq, bidx39_eq, lidx42_eq, ridx42_eq, bidx44_eq,
    ix2_at0, ix2_at1, idx46_at0, idx46_at1, idx46_at2, hq1, hq3]
  rfl

end Cert.ReferenceIdeal.RefValue

end
-- ==== Proof.KernelPayload.lean ====
/-
  The kernel body's stored value, read at one entry of the output block: it is `MlpSpec.mlp` of row p of the input block,
  the three weight blocks as loaded (contracted axis first), the three bias rows, and column q of the last weight block.

  The body is three matrix products into zero accumulators, each a sum over its contracted axis; after the first two a
  bias row is broadcast down the rows, added, and the sum clamped at zero from below; after the third the bias row is
  added. The changes of float format between the layers are the identity on extended reals, and the shape casts are to
  the same shape.
-/
import proofs.«106709_j30940944400880_1_alg».proof.Proof.Gen.KernelIdeal.Skeleton
import proofs.«106709_j30940944400880_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.MlpSpec

/-! ## The three matrix products at an entry -/

theorem lhs1_0 (i : S256x1024.Idx) (q : dot_S256x3072_S3072x1024_S256x1024_1_0_0_1_n_n.contr.Idx) :
    (dot_S256x3072_S3072x1024_S256x1024_1_0_0_1_n_n.lhsIdx i q 0).val = (i 0).val := by
  unfold DotDims.lhsIdx
  rw [dif_neg (show ¬(0 : Fin S256x3072.rank) ∈ dot_S256x3072_S3072x1024_S256x1024_1_0_0_1_n_n.lhsBatch by decide), dif_pos (show (0 : Fin S256x3072.rank) ∈ dot_S256x3072_S3072x1024_S256x1024_1_0_0_1_n_n.lhsNonContracting by decide)]
  rfl
theorem lhs1_1 (i : S256x1024.Idx) (q : dot_S256x3072_S3072x1024_S256x1024_1_0_0_1_n_n.contr.Idx) :
    (dot_S256x3072_S3072x1024_S256x1024_1_0_0_1_n_n.lhsIdx i q 1).val = (q ⟨0, by decide⟩).val :=
  dot_S256x3072_S3072x1024_S256x1024_1_0_0_1_n_n.lhsIdx_val_of_single rfl i q
theorem rhs1_0 (i : S256x1024.Idx) (q : dot_S256x3072_S3072x1024_S256x1024_1_0_0_1_n_n.contr.Idx) :
    (dot_S256x3072_S3072x1024_S256x1024_1_0_0_1_n_n.rhsIdx i q 0).val = (q ⟨0, by decide⟩).val :=
  dot_S256x3072_S3072x1024_S256x1024_1_0_0_1_n_n.rhsIdx_val_of_single rfl i q
theorem rhs1_1 (i : S256x1024.Idx) (q : dot_S256x3072_S3072x1024_S256x1024_1_0_0_1_n_n.contr.Idx) :
    (dot_S256x3072_S3072x1024_S256x1024_1_0_0_1_n_n.rhsIdx i q 1).val = (i 1).val := by
  unfold DotDims.rhsIdx
  rw [dif_neg (show ¬(1 : Fin S3072x1024.rank) ∈ dot_S256x3072_S3072x1024_S256x1024_1_0_0_1_n_n.rhsBatch by decide), dif_pos (show (1 : Fin S3072x1024.rank) ∈ dot_S256x3072_S3072x1024_S256x1024_1_0_0_1_n_n.rhsNonContracting by decide)]
  rfl

/-- Entry (p, j) of this product into a zero accumulator: the sum over the contracted axis of row p of the left
    operand times column j of the right. -/
theorem mm1_apply (a : FVec Ideal S256x3072 .bf16) (b : FVec Ideal S3072x1024 .bf16) (p : Fin 256) (j : Fin 1024) :
    matmul dot_S256x3072_S3072x1024_S256x1024_1_0_0_1_n_n none a b (constant S256x1024 .f32 0x00000000#32) (ix2 p j : S256x1024.Idx)
      = ∑ k : Fin 3072, a (ix2 p k : S256x3072.Idx) * b (ix2 k j : S3072x1024.Idx) := by
  refine (Ideal.matmul_constant_zero_apply dot_S256x3072_S3072x1024_S256x1024_1_0_0_1_n_n none a b _).trans ?_
  rw [← Equiv.sum_comp (contrEquiv1 dot_S256x3072_S3072x1024_S256x1024_1_0_0_1_n_n 3072 rfl rfl).symm]
  refine Finset.sum_congr rfl fun k _ => ?_
  have hk := contrEquiv1_symm_val dot_S256x3072_S3072x1024_S256x1024_1_0_0_1_n_n 3072 rfl rfl k
  have el : dot_S256x3072_S3072x1024_S256x1024_1_0_0_1_n_n.lhsIdx (ix2 p j : S256x1024.Idx) ((contrEquiv1 dot_S256x3072_S3072x1024_S256x1024_1_0_0_1_n_n 3072 rfl rfl).symm k) = (ix2 p k : S256x3072.Idx) := funext fun a => Fin.ext (by
    match a with
    | ⟨0, _⟩ => exact lhs1_0 _ _
    | ⟨1, _⟩ => exact (lhs1_1 _ _).trans hk)
  have er : dot_S256x3072_S3072x1024_S256x1024_1_0_0_1_n_n.rhsIdx (ix2 p j : S256x1024.Idx) ((contrEquiv1 dot_S256x3072_S3072x1024_S256x1024_1_0_0_1_n_n 3072 rfl rfl).symm k) = (ix2 k j : S3072x1024.Idx) := funext fun a => Fin.ext (by
    match a with
    | ⟨0, _⟩ => exact (rhs1_0 _ _).trans hk
    | ⟨1, _⟩ => exact rhs1_1 _ _)
  rw [el, er]

theorem lhs2_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs2_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs2_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs2_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (p, j) of this product into a zero accumulator: the sum over the contracted axis of row p of the left
    operand times column j of the right. -/
theorem mm2_apply (a : FVec Ideal S256x1024 .bf16) (b : FVec Ideal S1024x1024 .bf16) (p : Fin 256) (j : Fin 1024) :
    matmul dot_S256x1024_S1024x1024_S256x1024_1_0_0_1_n_n none a b (constant S256x1024 .f32 0x00000000#32) (ix2 p j : S256x1024.Idx)
      = ∑ k : Fin 1024, a (ix2 p k : S256x1024.Idx) * b (ix2 k j : S1024x1024.Idx) := by
  refine (Ideal.matmul_constant_zero_apply dot_S256x1024_S1024x1024_S256x1024_1_0_0_1_n_n none a b _).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p j : S256x1024.Idx) ((contrEquiv1 dot_S256x1024_S1024x1024_S256x1024_1_0_0_1_n_n 1024 rfl rfl).symm k) = (ix2 p k : S256x1024.Idx) := funext fun a => Fin.ext (by
    match a with
    | ⟨0, _⟩ => exact lhs2_0 _ _
    | ⟨1, _⟩ => exact (lhs2_1 _ _).trans hk)
  have er : dot_S256x1024_S1024x1024_S256x1024_1_0_0_1_n_n.rhsIdx (ix2 p j : S256x1024.Idx) ((contrEquiv1 dot_S256x1024_S1024x1024_S256x1024_1_0_0_1_n_n 1024 rfl rfl).symm k) = (ix2 k j : S1024x1024.Idx) := funext fun a => Fin.ext (by
    match a with
    | ⟨0, _⟩ => exact (rhs2_0 _ _).trans hk
    | ⟨1, _⟩ => exact rhs2_1 _ _)
  rw [el, er]

theorem lhs3_0 (i : S256x1000.Idx) (q : dot_S256x1024_S1024x1000_S256x1000_1_0_0_1_n_n.contr.Idx) :
    (dot_S256x1024_S1024x1000_S256x1000_1_0_0_1_n_n.lhsIdx i q 0).val = (i 0).val := by
  unfold DotDims.lhsIdx
  rw [dif_neg (show ¬(0 : Fin S256x1024.rank) ∈ dot_S256x1024_S1024x1000_S256x1000_1_0_0_1_n_n.lhsBatch by decide), dif_pos (show (0 : Fin S256x1024.rank) ∈ dot_S256x1024_S1024x1000_S256x1000_1_0_0_1_n_n.lhsNonContracting by decide)]
  rfl
theorem lhs3_1 (i : S256x1000.Idx) (q : dot_S256x1024_S1024x1000_S256x1000_1_0_0_1_n_n.contr.Idx) :
    (dot_S256x1024_S1024x1000_S256x1000_1_0_0_1_n_n.lhsIdx i q 1).val = (q ⟨0, by decide⟩).val :=
  dot_S256x1024_S1024x1000_S256x1000_1_0_0_1_n_n.lhsIdx_val_of_single rfl i q
theorem rhs3_0 (i : S256x1000.Idx) (q : dot_S256x1024_S1024x1000_S256x1000_1_0_0_1_n_n.contr.Idx) :
    (dot_S256x1024_S1024x1000_S256x1000_1_0_0_1_n_n.rhsIdx i q 0).val = (q ⟨0, by decide⟩).val :=
  dot_S256x1024_S1024x1000_S256x1000_1_0_0_1_n_n.rhsIdx_val_of_single rfl i q
theorem rhs3_1 (i : S256x1000.Idx) (q : dot_S256x1024_S1024x1000_S256x1000_1_0_0_1_n_n.contr.Idx) :
    (dot_S256x1024_S1024x1000_S256x1000_1_0_0_1_n_n.rhsIdx i q 1).val = (i 1).val := by
  unfold DotDims.rhsIdx
  rw [dif_neg (show ¬(1 : Fin S1024x1000.rank) ∈ dot_S256x1024_S1024x1000_S256x1000_1_0_0_1_n_n.rhsBatch by decide), dif_pos (show (1 : Fin S1024x1000.rank) ∈ dot_S256x1024_S1024x1000_S256x1000_1_0_0_1_n_n.rhsNonContracting by decide)]
  rfl

/-- Entry (p, j) of this product into a zero accumulator: the sum over the contracted axis of row p of the left
    operand times column j of the right. -/
theorem mm3_apply (a : FVec Ideal S256x1024 .bf16) (b : FVec Ideal S1024x1000 .bf16) (p : Fin 256) (j : Fin 1000) :
    matmul dot_S256x1024_S1024x1000_S256x1000_1_0_0_1_n_n none a b (constant S256x1000 .f32 0x00000000#32) (ix2 p j : S256x1000.Idx)
      = ∑ k : Fin 1024, a (ix2 p k : S256x1024.Idx) * b (ix2 k j : S1024x1000.Idx) := by
  refine (Ideal.matmul_constant_zero_apply dot_S256x1024_S1024x1000_S256x1000_1_0_0_1_n_n none a b _).trans ?_
  rw [← Equiv.sum_comp (contrEquiv1 dot_S256x1024_S1024x1000_S256x1000_1_0_0_1_n_n 1024 rfl rfl).symm]
  refine Finset.sum_congr rfl fun k _ => ?_
  have hk := contrEquiv1_symm_val dot_S256x1024_S1024x1000_S256x1000_1_0_0_1_n_n 1024 rfl rfl k
  have el : dot_S256x1024_S1024x1000_S256x1000_1_0_0_1_n_n.lhsIdx (ix2 p j : S256x1000.Idx) ((contrEquiv1 dot_S256x1024_S1024x1000_S256x1000_1_0_0_1_n_n 1024 rfl rfl).symm k) = (ix2 p k : S256x1024.Idx) := funext fun a => Fin.ext (by
    match a with
    | ⟨0, _⟩ => exact lhs3_0 _ _
    | ⟨1, _⟩ => exact (lhs3_1 _ _).trans hk)
  have er : dot_S256x1024_S1024x1000_S256x1000_1_0_0_1_n_n.rhsIdx (ix2 p j : S256x1000.Idx) ((contrEquiv1 dot_S256x1024_S1024x1000_S256x1000_1_0_0_1_n_n 1024 rfl rfl).symm k) = (ix2 k j : S1024x1000.Idx) := funext fun a => Fin.ext (by
    match a with
    | ⟨0, _⟩ => exact (rhs3_0 _ _).trans hk
    | ⟨1, _⟩ => exact rhs3_1 _ _)
  rw [el, er]

/-! ## A bias row broadcast down the rows -/

/-- A [1, 1024] row broadcast to [256, 1024], at (p, j): the row's entry j. -/
theorem brow1024_apply (v : FVec Ideal S1x1024 .f32) (p : Fin 256) (j : Fin 1024) :
    broadcastTo S256x1024 v broadcasts_S1x1024_S256x1024 (ix2 p j : S256x1024.Idx) = v (ix2 (0 : Fin 1) j : S1x1024.Idx) :=
  broadcastTo_apply v broadcasts_S1x1024_S256x1024 (ix2 p j : S256x1024.Idx) (ix2 (0 : Fin 1) j : S1x1024.Idx) (fun a => match a with
    | ⟨0, _⟩ => by show 0 = if (1 : Nat) = 1 then 0 else _; rw [if_pos rfl]
    | ⟨1, _⟩ => by show j.val = if (1024 : Nat) = 1 then 0 else j.val; rw [if_neg (by decide)])

/-- A [1, 1000] row broadcast to [256, 1000], at (p, q): the row's entry q. -/
theorem brow1000_apply (v : FVec Ideal S1x1000 .f32) (p : Fin 256) (q : Fin 1000) :
    broadcastTo S256x1000 v broadcasts_S1x1000_S256x1000 (ix2 p q : S256x1000.Idx) = v (ix2 (0 : Fin 1) q : S1x1000.Idx) :=
  broadcastTo_apply v broadcasts_S1x1000_S256x1000 (ix2 p q : S256x1000.Idx) (ix2 (0 : Fin 1) q : S1x1000.Idx) (fun a => match a with
    | ⟨0, _⟩ => by show 0 = if (1 : Nat) = 1 then 0 else _; rw [if_pos rfl]
    | ⟨1, _⟩ => by show q.val = if (1000 : Nat) = 1 then 0 else q.val; rw [if_neg (by decide)])

/-! ## The stored value at an entry -/

/-- Entry (p, q) of what the body stores is the three-layer formula of row p of the input block and column q of the
    last weight block. -/
theorem pay_apply (v0 : Vec Ideal S256x3072 .f32) (v2 : Vec Ideal S3072x1024 .bf16) (v5 : Vec Ideal S1x1024 .f32)
    (v12 : Vec Ideal S1024x1024 .bf16) (v15 : Vec Ideal S1x1024 .f32) (v22 : Vec Ideal S1024x1000 .bf16)
    (v25 : Vec Ideal S1x1000 .f32) (p : Fin 256) (q : Fin 1000) :
    k0_pay1 (F := Ideal) v0 v2 v5 v12 v15 v22 v25 (ix2 p q : S256x1000.Idx)
      = mlp (fun k1 => v0 (ix2 p k1 : S256x3072.Idx)) (fun k1 k2 => v2 (ix2 k1 k2 : S3072x1024.Idx))
          (fun k2 => v5 (ix2 (0 : Fin 1) k2 : S1x1024.Idx)) (fun k2 k3 => v12 (ix2 k2 k3 : S1024x1024.Idx))
          (fun k3 => v15 (ix2 (0 : Fin 1) k3 : S1x1024.Idx)) (fun k3 => v22 (ix2 k3 q : S1024x1000.Idx))
          (v25 (ix2 (0 : Fin 1) q : S1x1000.Idx)) := by
  simp only [k0_pay1, mlp, addf_apply, maximumf_apply, truncf_apply, broadcast_apply, mm1_apply, mm2_apply, mm3_apply,
    brow1024_apply, brow1000_apply, shapeCast_self]
  rfl

end Cert.KernelIdeal.Body

end
-- ==== Proof.KernelHost.lean ====
/-
  The six arrays the host operations prepare for the kernel's windows, as functions of the arguments — for any float
  values: nothing here depends on what the float operations are, only on which operations are applied to what.

  Each hidden weight matrix is quantised row by row: scale = (the row's largest absolute value) / 127, at least the
  printed floor; quantised entry = clamp (round-to-even (entry / scale), -128, 127) · scale; then the matrix is
  transposed and narrowed for the window. The head weights are flattened and transposed; the biases become single rows.
  The quantiser's operations are the reference's own, in the same order (`quant1_eq`, `quant2_eq`).
-/
import proofs.«106709_j30940944400880_1_alg».proof.Proof.Gen.KernelIdeal.Frame
import proofs.«106709_j30940944400880_1_alg».proof.Proof.Gen.ReferenceIdeal.Read
import Idealize.ShloMosaic.Lib.StableHlo.Run
import Idealize.ShloMosaic.Lib.Pipeline.Value

noncomputable section

open Idealize.ShloMosaic Idealize.ShloMosaic.TcCoe Idealize.SL.Sem

namespace Cert.KernelIdeal.HostArrays

open Cert.KernelIdeal Cert.KernelIdeal.Gen

variable {F : FTy → Type} [FloatOps F]
variable (m : (ℓ : Loc nD τ sig) → Buf (Elt F) ℓ)

/-! ## The quantiser -/

/-- The per-row scale of the first weight matrix. -/
def scale1 (x : FVec F S1024x3072 .f32) : FVec F S1024x1 .f32 :=
  maximumf (Host.divf (broadcastInDim S1024x1 ![0] bcast_S1024_S1024x1_0 (Host.reduce FloatOps.maximumf (Host.absf x) (constant S_ .f32 0xFF800000#32) reducesTo_S1024x3072_S1024_d1 h_S_))
      (broadcastInDim S1024x1 ![] bcast_S_S1024x1 (constant S_ .f32 0x42FE0000#32)))
    (broadcastInDim S1024x1 ![] bcast_S_S1024x1 (constant S_ .f32 0x2B8CBCCC#32))

/-- The first weight matrix quantised. -/
def quant1 (x : FVec F S1024x3072 .f32) : FVec F S1024x3072 .f32 :=
  mulf (minimumf (broadcastInDim S1024x3072 ![] bcast_S_S1024x3072 (id (constant S_ .f32 0x42FE0000#32)))
      (maximumf (broadcastInDim S1024x3072 ![] bcast_S_S1024x3072 (id (constant S_ .f32 0xC3000000#32)))
        (Host.roundeven (Host.divf x (broadcastInDim S1024x3072 ![0, 1] bcast_S1024x1_S1024x3072_0_1 (scale1 x))))))
    (broadcastInDim S1024x3072 ![0, 1] bcast_S1024x1_S1024x3072_0_1 (scale1 x))

/-- The per-row scale of the second weight matrix. -/
def scale2 (x : FVec F S1024x1024 .f32) : FVec F S1024x1 .f32 :=
  maximumf (Host.divf (broadcastInDim S1024x1 ![0] bcast_S1024_S1024x1_0 (Host.reduce FloatOps.maximumf (Host.absf x) (constant S_ .f32 0xFF800000#32) reducesTo_S1024x1024_S1024_d1 h_S_))
      (broadcastInDim S1024x1 ![] bcast_S_S1024x1 (constant S_ .f32 0x42FE0000#32)))
    (broadcastInDim S1024x1 ![] bcast_S_S1024x1 (constant S_ .f32 0x2B8CBCCC#32))

/-- The second weight matrix quantised. -/
def quant2 (x : FVec F S1024x1024 .f32) : FVec F S1024x1024 .f32 :=
  mulf (minimumf (broadcastInDim S1024x1024 ![] bcast_S_S1024x1024 (id (constant S_ .f32 0x42FE0000#32)))
      (maximumf (broadcastInDim S1024x1024 ![] bcast_S_S1024x1024 (id (constant S_ .f32 0xC3000000#32)))
        (Host.roundeven (Host.divf x (broadcastInDim S1024x1024 ![0, 1] bcast_S1024x1_S1024x1024_0_1 (scale2 x))))))
    (broadcastInDim S1024x1024 ![0, 1] bcast_S1024x1_S1024x1024_0_1 (scale2 x))

/-- The kernel's quantiser is the reference's: the same operations in the same order. -/
theorem quant1_eq (x : FVec F S1024x3072 .f32) : quant1 x = Cert.ReferenceIdeal.Read.val_main_v12 (F := F) x := rfl
theorem quant2_eq (x : FVec F S1024x1024 .f32) : quant2 x = Cert.ReferenceIdeal.Read.val_main_v33 (F := F) x := rfl

/-! ## The first weight matrix's road to its window, a step at a time

Each step names the arrays it starts from by their contents at region entry. The row maximum is kept folded throughout:
it is compared as one operation of its operands, never as the fold over the row it abbreviates. -/

attribute [local irreducible] Host.reduce

set_option maxHeartbeats 4000000 in
/-- The absolute values. -/
theorem w1_abs (c : Dev nD) : @Eq (FVec F S1024x3072 .f32) (V m c main_call0_v0) (Host.absf (m ((c : Thread nD τ).loc main_arg1))) := by
  dsimp only [Gen.V, Gen.hostOps0]
  after_results_simp
  rfl

set_option maxHeartbeats 4000000 in
/-- The rows' largest absolute values. -/
theorem w1_max (c : Dev nD) : @Eq (FVec F S1024 .f32) (V m c main_call0_v1)
    (Host.reduce FloatOps.maximumf (V m c main_call0_v0) (constant S_ .f32 0xFF800000#32) reducesTo_S1024x3072_S1024_d1 h_S_) := by
  dsimp only [Gen.V, Gen.hostOps0]
  after_results_simp
  rfl

set_option maxHeartbeats 4000000 in
/-- As a column. -/
theorem w1_rowmax (c : Dev nD) : @Eq (FVec F S1024x1 .f32) (V m c main_call0_v2)
    (broadcastInDim S1024x1 ![0] bcast_S1024_S1024x1_0 (V m c main_call0_v1)) := by
  dsimp only [Gen.V, Gen.hostOps0]
  after_results_simp
  rfl

set_option maxHeartbeats 4000000 in
/-- The rows' scales: largest absolute value over 127, at least the printed floor. -/
theorem w1_scale (c : Dev nD) : @Eq (FVec F S1024x1 .f32) (V m c main_call0_v6)
    (maximumf (Host.divf (V m c main_call0_v2) (broadcastInDim S1024x1 ![] bcast_S_S1024x1 (constant S_ .f32 0x42FE0000#32)))
      (broadcastInDim S1024x1 ![] bcast_S_S1024x1 (constant S_ .f32 0x2B8CBCCC#32))) := by
  dsimp only [Gen.V, Gen.hostOps0]
  after_results_simp
  rfl

set_option maxHeartbeats 4000000 in
/-- Each entry over its row's scale, rounded to even. -/
theorem w1_round (c : Dev nD) : @Eq (FVec F S1024x3072 .f32) (V m c main_call0_v9)
    (Host.roundeven (Host.divf (m ((c : Thread nD τ).loc main_arg1)) (broadcastInDim S1024x3072 ![0, 1] bcast_S1024x1_S1024x3072_0_1 (V m c main_call0_v6)))) := by
  dsimp only [Gen.V, Gen.hostOps0]
  after_results_simp
  rfl

set_option maxHeartbeats 4000000 in
/-- Clamped from below at -128. -/
theorem w1_lo (c : Dev nD) : @Eq (FVec F S1024x3072 .f32) (V m c main_call0_call1_v2)
    (maximumf (broadcastInDim S1024x3072 ![] bcast_S_S1024x3072 (id (constant S_ .f32 0xC3000000#32))) (V m c main_call0_v9)) := by
  dsimp only [Gen.V, Gen.hostOps0]
  after_results_simp
  rfl

set_option maxHeartbeats 4000000 in
/-- Clamped from above at 127. -/
theorem w1_hi (c : Dev nD) : @Eq (FVec F S1024x3072 .f32) (V m c main_call0_v10)
    (minimumf (broadcastInDim S1024x3072 ![] bcast_S_S1024x3072 (id (constant S_ .f32 0x42FE0000#32))) (V m c main_call0_call1_v2)) := by
  dsimp only [Gen.V, Gen.hostOps0]
  after_results_simp
  rfl

set_option maxHeartbeats 4000000 in
/-- Times the row's scale: the quantised matrix. -/
theorem w1_quant (c : Dev nD) : @Eq (FVec F S1024x3072 .f32) (V m c main_call0_v12)
    (mulf (V m c main_call0_v10) (broadcastInDim S1024x3072 ![0, 1] bcast_S1024x1_S1024x3072_0_1 (V m c main_call0_v6))) := by
  dsimp only [Gen.V, Gen.hostOps0]
  after_results_simp
  rfl

set_option maxHeartbeats 4000000 in
/-- Transposed. -/
theorem w1_transposed (c : Dev nD) : @Eq (FVec F S3072x1024 .f32) (V m c main_call0_v26)
    (transpose S3072x1024 [1, 0] (V m c main_call0_v12) transposes_S1024x3072_S3072x1024_1_0) := by
  dsimp only [Gen.V, Gen.hostOps0]
  after_results_simp
  rfl

set_option maxHeartbeats 4000000 in
/-- Narrowed to the window's format. -/
theorem w1_window (c : Dev nD) : @Eq (FVec F S3072x1024 .bf16) (V m c main_call0_v27)
    (truncf .bf16 (V m c main_call0_v26) bitsLt_bf16_f32) := by
  dsimp only [Gen.V, Gen.hostOps0]
  after_results_simp
  rfl

/-- The first weight window's array: the quantised first matrix, transposed. -/
theorem W1_eq (c : Dev nD) : @Eq (FVec F S3072x1024 .bf16) (V m c main_call0_v27)
    (truncf .bf16 (transpose S3072x1024 [1, 0] (quant1 (m ((c : Thread nD τ).loc main_arg1))) transposes_S1024x3072_S3072x1024_1_0) bitsLt_bf16_f32) := by
  rw [w1_window, w1_transposed, w1_quant, w1_hi, w1_lo, w1_round, w1_scale, w1_rowmax, w1_max, w1_abs]
  rfl

/-! ## The second weight matrix's -/

set_option maxHeartbeats 4000000 in
/-- The absolute values. -/
theorem w2_abs (c : Dev nD) : @Eq (FVec F S1024x1024 .f32) (V m c main_call0_v13) (Host.absf (m ((c : Thread nD τ).loc main_arg3))) := by
  dsimp only [Gen.V, Gen.hostOps0]
  after_results_simp
  rfl

set_option maxHeartbeats 4000000 in
/-- The rows' largest absolute values. -/
theorem w2_max (c : Dev nD) : @Eq (FVec F S1024 .f32) (V m c main_call0_v14)
    (Host.reduce FloatOps.maximumf (V m c main_call0_v13) (constant S_ .f32 0xFF800000#32) reducesTo_S1024x1024_S1024_d1 h_S_) := by
  dsimp only [Gen.V, Gen.hostOps0]
  after_results_simp
  rfl

set_option maxHeartbeats 4000000 in
/-- As a column. -/
theorem w2_rowmax (c : Dev nD) : @Eq (FVec F S1024x1 .f32) (V m c main_call0_v15)
    (broadcastInDim S1024x1 ![0] bcast_S1024_S1024x1_0 (V m c main_call0_v14)) := by
  dsimp only [Gen.V, Gen.hostOps0]
  after_results_simp
  rfl

set_option maxHeartbeats 4000000 in
/-- The rows' scales: largest absolute value over 127, at least the printed floor. -/
theorem w2_scale (c : Dev nD) : @Eq (FVec F S1024x1 .f32) (V m c main_call0_v19)
    (maximumf (Host.divf (V m c main_call0_v15) (broadcastInDim S1024x1 ![] bcast_S_S1024x1 (constant S_ .f32 0x42FE0000#32)))
      (broadcastInDim S1024x1 ![] bcast_S_S1024x1 (constant S_ .f32 0x2B8CBCCC#32))) := by
  dsimp only [Gen.V, Gen.hostOps0]
  after_results_simp
  rfl

set_option maxHeartbeats 4000000 in
/-- Each entry over its row's scale, rounded to even. -/
theorem w2_round (c : Dev nD) : @Eq (FVec F S1024x1024 .f32) (V m c main_call0_v22)
    (Host.roundeven (Host.divf (m ((c : Thread nD τ).loc main_arg3)) (broadcastInDim S1024x1024 ![0, 1] bcast_S1024x1_S1024x1024_0_1 (V m c main_call0_v19)))) := by
  dsimp only [Gen.V, Gen.hostOps0]
  after_results_simp
  rfl

set_option maxHeartbeats 4000000 in
/-- Clamped from below at -128. -/
theorem w2_lo (c : Dev nD) : @Eq (FVec F S1024x1024 .f32) (V m c main_call0_call3_v2)
    (maximumf (broadcastInDim S1024x1024 ![] bcast_S_S1024x1024 (id (constant S_ .f32 0xC3000000#32))) (V m c main_call0_v22)) := by
  dsimp only [Gen.V, Gen.hostOps0]
  after_results_simp
  rfl

set_option maxHeartbeats 4000000 in
/-- Clamped from above at 127. -/
theorem w2_hi (c : Dev nD) : @Eq (FVec F S1024x1024 .f32) (V m c main_call0_v23)
    (minimumf (broadcastInDim S1024x1024 ![] bcast_S_S1024x1024 (id (constant S_ .f32 0x42FE0000#32))) (V m c main_call0_call3_v2)) := by
  dsimp only [Gen.V, Gen.hostOps0]
  after_results_simp
  rfl

set_option maxHeartbeats 4000000 in
/-- Times the row's scale: the quantised matrix. -/
theorem w2_quant (c : Dev nD) : @Eq (FVec F S1024x1024 .f32) (V m c main_call0_v25)
    (mulf (V m c main_call0_v23) (broadcastInDim S1024x1024 ![0, 1] bcast_S1024x1_S1024x1024_0_1 (V m c main_call0_v19))) := by
  dsimp only [Gen.V, Gen.hostOps0]
  after_results_simp
  rfl

set_option maxHeartbeats 4000000 in
/-- Transposed. -/
theorem w2_transposed (c : Dev nD) : @Eq (FVec F S1024x1024 .f32) (V m c main_call0_v28)
    (transpose S1024x1024 [1, 0] (V m c main_call0_v25) transposes_S1024x1024_S1024x1024_1_0) := by
  dsimp only [Gen.V, Gen.hostOps0]
  after_results_simp
  rfl

set_option maxHeartbeats 4000000 in
/-- Narrowed to the window's format. -/
theorem w2_window (c : Dev nD) : @Eq (FVec F S1024x1024 .bf16) (V m c main_call0_v29)
    (truncf .bf16 (V m c main_call0_v28) bitsLt_bf16_f32) := by
  dsimp only [Gen.V, Gen.hostOps0]
  after_results_simp
  rfl

/-- The second weight window's array: the quantised second matrix, transposed. -/
theorem W2_eq (c : Dev nD) : @Eq (FVec F S1024x1024 .bf16) (V m c main_call0_v29)
    (truncf .bf16 (transpose S1024x1024 [1, 0] (quant2 (m ((c : Thread nD τ).loc main_arg3))) transposes_S1024x1024_S1024x1024_1_0) bitsLt_bf16_f32) := by
  rw [w2_window, w2_transposed, w2_quant, w2_hi, w2_lo, w2_round, w2_scale, w2_rowmax, w2_max, w2_abs]
  rfl

/-! ## The head weights and the biases -/

set_option maxHeartbeats 4000000 in
/-- The third weight window's array: the head weights flattened to [1000, 1024], transposed. -/
theorem W3_eq (c : Dev nD) : @Eq (FVec F S1024x1000 .bf16) (V m c main_call0_v32)
    (truncf .bf16 (transpose S1024x1000 [1, 0] (shapeCast S1000x1024 (m ((c : Thread nD τ).loc main_arg5)) shapeCasts_S10x100x1024_S1000x1024)
      transposes_S1000x1024_S1024x1000_1_0) bitsLt_bf16_f32) := by
  dsimp only [Gen.V, Gen.hostOps0]
  after_results_simp
  rfl

set_option maxHeartbeats 4000000 in
/-- The three bias windows' arrays: each bias as one row. -/
theorem B1_eq (c : Dev nD) : @Eq (FVec F S1x1024 .f32) (V m c main_call0_v33)
    (shapeCast S1x1024 (m ((c : Thread nD τ).loc main_arg2)) shapeCasts_S1024_S1x1024) := by
  dsimp only [Gen.V, Gen.hostOps0]
  after_results_simp
  rfl

set_option maxHeartbeats 4000000 in
theorem B2_eq (c : Dev nD) : @Eq (FVec F S1x1024 .f32) (V m c main_call0_v34)
    (shapeCast S1x1024 (m ((c : Thread nD τ).loc main_arg4)) shapeCasts_S1024_S1x1024) := by
  dsimp only [Gen.V, Gen.hostOps0]
  after_results_simp
  rfl

set_option maxHeartbeats 4000000 in
theorem B3_eq (c : Dev nD) : @Eq (FVec F S1x1000 .f32) (V m c main_call0_v35)
    (shapeCast S1x1000 (m ((c : Thread nD τ).loc main_arg6)) shapeCasts_S10x100_S1x1000) := by
  dsimp only [Gen.V, Gen.hostOps0]
  after_results_simp
  rfl

end Cert.KernelIdeal.HostArrays

end
-- ==== Proof.KernelArrays.lean ====
/-
  The kernel's result array, from its blocks.

  The region finds seven arrays: the input as given, and six that the host operations before it prepared (KernelHost) —
  the two quantised hidden weight matrices transposed (contracted axis first), the head weights flattened to
  [1000, 1024] and transposed, and the three biases as single rows. The grid has 64 points; point t stages rows 256 t … 256 t + 255 of the
  input, all of every other array, and writes back rows 256 t … 256 t + 255 of the result. So entry (256 t + p, q) of
  the result is the body's stored value at (p, q), which is `MlpSpec.mlp` of the staged blocks (KernelPayload), and
  reading each staged entry back to the arguments gives `MlpSpec.G`. The 64 row blocks tile the result.
-/
import proofs.«106709_j30940944400880_1_alg».proof.Proof.Gen.KernelIdeal.Frame
import proofs.«106709_j30940944400880_1_alg».proof.Proof.Gen.KernelIdeal.Value
import proofs.«106709_j30940944400880_1_alg».proof.Proof.Gen.ReferenceIdeal.Read
import proofs.«106709_j30940944400880_1_alg».proof.Proof.Spec
import proofs.«106709_j30940944400880_1_alg».proof.Proof.KernelPayload
import proofs.«106709_j30940944400880_1_alg».proof.Proof.KernelHost
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.HostArrays Idealize.ShloMosaic.ValueIdx Cert.MlpSpec

variable (m : (ℓ : Loc nD τ sig) → Buf (Elt Ideal) ℓ) (ρ : Dev nD → PrngReg)

/-! ## The quantised hidden weights, and the result -/

/-- The first hidden weight matrix quantised per output channel (the same operations as the reference's, so the
    reference's stage names it). -/
abbrev Q1 (c : Dev nD) : S1024x3072.Idx → EReal :=
  Cert.ReferenceIdeal.Read.val_main_v12 (F := Ideal) (m ((c : Thread nD τ).loc main_arg1))

/-- The second hidden weight matrix quantised per output channel. -/
abbrev Q2 (c : Dev nD) : S1024x1024.Idx → EReal :=
  Cert.ReferenceIdeal.Read.val_main_v33 (F := Ideal) (m ((c : Thread nD τ).loc main_arg3))

/-- What the result array ends holding: the specification of the arguments, the hidden weights quantised. -/
abbrev result (c : Dev nD) : S16384x1000.Idx → EReal :=
  G (m ((c : Thread nD τ).loc main_arg0)) (Q1 m c) (m ((c : Thread nD τ).loc main_arg2)) (Q2 m c)
    (m ((c : Thread nD τ).loc main_arg4)) (m ((c : Thread nD τ).loc main_arg5)) (m ((c : Thread nD τ).loc main_arg6))

/-! ## Those arrays at an entry -/

/-- Entry (k, j) of the transposed quantised first matrix is entry (j, k) of the quantised matrix. -/
theorem W1_apply (c : Dev nD) (k : Fin 3072) (j : Fin 1024) :
    (V m c main_call0_v27 : S3072x1024.Idx → EReal) (ix2 k j : S3072x1024.Idx) = Q1 m c (ix2 j k : S1024x3072.Idx) := by
  rw [W1_eq (F := Ideal) m c, truncf_apply]
  refine (transpose_apply [1, 0] _ transposes_S1024x3072_S3072x1024_1_0 (ix2 k j : S3072x1024.Idx) (ix2 j k : S1024x3072.Idx)
    (fun b => match b with | ⟨0, _⟩ => rfl | ⟨1, _⟩ => rfl)).trans ?_
  exact congrFun (quant1_eq _) _

theorem W2_apply (c : Dev nD) (k : Fin 1024) (j : Fin 1024) :
    (V m c main_call0_v29 : S1024x1024.Idx → EReal) (ix2 k j : S1024x1024.Idx) = Q2 m c (ix2 j k : S1024x1024.Idx) := by
  rw [W2_eq (F := Ideal) m c, truncf_apply]
  refine (transpose_apply [1, 0] _ transposes_S1024x1024_S1024x1024_1_0 (ix2 k j : S1024x1024.Idx) (ix2 j k : S1024x1024.Idx)
    (fun b => match b with | ⟨0, _⟩ => rfl | ⟨1, _⟩ => rfl)).trans ?_
  exact congrFun (quant2_eq _) _

/-- Entry (k, q) of the flattened, transposed head weights is head q / 100, class q % 100, position k. -/
theorem W3_apply (c : Dev nD) (k : Fin 1024) (q : Fin 1000) (th : Fin 10) (cl : Fin 100)
    (hth : th.val = q.val / 100) (hcl : cl.val = q.val % 100) :
    (V m c main_call0_v32 : S1024x1000.Idx → EReal) (ix2 k q : S1024x1000.Idx)
      = m ((c : Thread nD τ).loc main_arg5) (ix3 th cl k : S10x100x1024.Idx) := by
  rw [W3_eq (F := Ideal) m c, truncf_apply]
  refine (transpose_apply [1, 0] _ transposes_S1000x1024_S1024x1000_1_0 (ix2 k q : S1024x1000.Idx) (ix2 q k : S1000x1024.Idx)
    (fun b => match b with | ⟨0, _⟩ => rfl | ⟨1, _⟩ => rfl)).trans ?_
  exact shapeCast_apply _ shapeCasts_S10x100x1024_S1000x1024 (ix2 q k : S1000x1024.Idx) (ix3 th cl k : S10x100x1024.Idx)
    (by rewrite [Shape.rowMajor_val_three, Shape.rowMajor_val_two]
        show (th.val * 100 + cl.val) * 1024 + k.val = q.val * 1024 + k.val
        omega)

/-- Entry (0, j) of a bias row is entry j of the bias. -/
theorem B1_apply (c : Dev nD) (j : Fin 1024) :
    (V m c main_call0_v33 : S1x1024.Idx → EReal) (ix2 (0 : Fin 1) j : S1x1024.Idx) = m ((c : Thread nD τ).loc main_arg2) (ix1 j : S1024.Idx) := by
  rw [B1_eq (F := Ideal) m c]
  exact shapeCast_apply _ shapeCasts_S1024_S1x1024 (ix2 (0 : Fin 1) j : S1x1024.Idx) (ix1 j : S1024.Idx)
    (by rewrite [Shape.rowMajor_val_one, Shape.rowMajor_val_two]
        show j.val = 0 * 1024 + j.val
        omega)

theorem B2_apply (c : Dev nD) (j : Fin 1024) :
    (V m c main_call0_v34 : S1x1024.Idx → EReal) (ix2 (0 : Fin 1) j : S1x1024.Idx) = m ((c : Thread nD τ).loc main_arg4) (ix1 j : S1024.Idx) := by
  rw [B2_eq (F := Ideal) m c]
  exact shapeCast_apply _ shapeCasts_S1024_S1x1024 (ix2 (0 : Fin 1) j : S1x1024.Idx) (ix1 j : S1024.Idx)
    (by rewrite [Shape.rowMajor_val_one, Shape.rowMajor_val_two]
        show j.val = 0 * 1024 + j.val
        omega)

/-- Entry (0, q) of the flattened head bias is head q / 100, class q % 100. -/
theorem B3_apply (c : Dev nD) (q : Fin 1000) (th : Fin 10) (cl : Fin 100) (hth : th.val = q.val / 100) (hcl : cl.val = q.val % 100) :
    (V m c main_call0_v35 : S1x1000.Idx → EReal) (ix2 (0 : Fin 1) q : S1x1000.Idx)
      = m ((c : Thread nD τ).loc main_arg6) (ix2 th cl : S10x100.Idx) := by
  rw [B3_eq (F := Ideal) m c]
  exact shapeCast_apply _ shapeCasts_S10x100_S1x1000 (ix2 (0 : Fin 1) q : S1x1000.Idx) (ix2 th cl : S10x100.Idx)
    (by rewrite [Shape.rowMajor_val_two, Shape.rowMajor_val_two]
        show th.val * 100 + cl.val = 0 * 1000 + q.val
        omega)

/-! ## The windows' blocks -/

/-- The printed index maps over the 64 points: the input and the output move down the rows with the point, every other
    window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The input window's block at point t is rows 256 t … 256 t + 255 of the input. -/
theorem blk0_read (c : Dev nD) (t : Fin cfg0.N) (x : S256x3072.Idx) (i : S16384x3072.Idx)
    (h0 : (i 0).val = t.val * 256 + (x 0).val) (h1 : (i 1).val = (x 1).val) :
    (iblk m c 0 t : Vec Ideal S256x3072 _) x = m ((c : Thread nD τ).loc main_arg0) i := by
  unfold iblk
  rw [View.read_apply]
  show V m c main_arg0 _ = _
  rw [V_main_arg0]
  congr 1
  funext a
  apply Fin.ext
  match a with
  | ⟨0, _⟩ => show win0_0.index t (0 : Fin 2) * 256 + 1 * (x 0).val = (i 0).val; rw [(idx_facts t).1, h0]; omega
  | ⟨1, _⟩ => show win0_0.index t (1 : Fin 2) * 3072 + 1 * (x 1).val = (i 1).val; rw [(idx_facts t).2.1, h1]; omega

/-- Window 1 stages its whole array at every point: its block index is (0, 0) and its block is the array. -/
theorem blk1_read (c : Dev nD) (t : Fin cfg0.N) (x : S3072x1024.Idx) :
    (iblk m c 1 t : Vec Ideal S3072x1024 _) x = (V m c main_call0_v27 : S3072x1024.Idx → EReal) x := by
  unfold iblk
  rw [View.read_apply]
  show V m c main_call0_v27 _ = V m c main_call0_v27 x
  congr 1
  funext a
  apply Fin.ext
  match a with
  | ⟨0, _⟩ => show win0_1.index t (0 : Fin 2) * 3072 + 1 * (x 0).val = (x 0).val; rw [(idx_facts t).2.2.1]; omega
  | ⟨1, _⟩ => show win0_1.index t (1 : Fin 2) * 1024 + 1 * (x 1).val = (x 1).val; rw [(idx_facts t).2.2.2.1]; omega

/-- Window 2 stages its whole array at every point: its block index is (0, 0) and its block is the array. -/
theorem blk2_read (c : Dev nD) (t : Fin cfg0.N) (x : S1024x1024.Idx) :
    (iblk m c 2 t : Vec Ideal S1024x1024 _) x = (V m c main_call0_v29 : S1024x1024.Idx → EReal) x := by
  unfold iblk
  rw [View.read_apply]
  show V m c main_call0_v29 _ = V m c main_call0_v29 x
  congr 1
  funext a
  apply Fin.ext
  match a with
  | ⟨0, _⟩ => show win0_2.index t (0 : Fin 2) * 1024 + 1 * (x 0).val = (x 0).val; rw [(idx_facts t).2.2.2.2.1]; omega
  | ⟨1, _⟩ => show win0_2.index t (1 : Fin 2) * 1024 + 1 * (x 1).val = (x 1).val; rw [(idx_facts t).2.2.2.2.2.1]; omega

/-- Window 3 stages its whole array at every point: its block index is (0, 0) and its block is the array. -/
theorem blk3_read (c : Dev nD) (t : Fin cfg0.N) (x : S1024x1000.Idx) :
    (iblk m c 3 t : Vec Ideal S1024x1000 _) x = (V m c main_call0_v32 : S1024x1000.Idx → EReal) x := by
  unfold iblk
  rw [View.read_apply]
  show V m c main_call0_v32 _ = V m c main_call0_v32 x
  congr 1
  funext a
  apply Fin.ext
  match a with
  | ⟨0, _⟩ => show win0_3.index t (0 : Fin 2) * 1024 + 1 * (x 0).val = (x 0).val; rw [(idx_facts t).2.2.2.2.2.2.1]; omega
  | ⟨1, _⟩ => show win0_3.index t (1 : Fin 2) * 1000 + 1 * (x 1).val = (x 1).val; rw [(idx_facts t).2.2.2.2.2.2.2.1]; omega

/-- Window 4 stages its whole array at every point: its block index is (0, 0) and its block is the array. -/
theorem blk4_read (c : Dev nD) (t : Fin cfg0.N) (x : S1x1024.Idx) :
    (iblk m c 4 t : Vec Ideal S1x1024 _) x = (V m c main_call0_v33 : S1x1024.Idx → EReal) x := by
  unfold iblk
  rw [View.read_apply]
  show V m c main_call0_v33 _ = V m c main_call0_v33 x
  congr 1
  funext a
  apply Fin.ext
  match a with
  | ⟨0, _⟩ => show win0_4.index t (0 : Fin 2) * 1 + 1 * (x 0).val = (x 0).val; rw [(idx_facts t).2.2.2.2.2.2.2.2.1]; omega
  | ⟨1, _⟩ => show win0_4.index t (1 : Fin 2) * 1024 + 1 * (x 1).val = (x 1).val; rw [(idx_facts t).2.2.2.2.2.2.2.2.2.1]; omega

/-- Window 5 stages its whole array at every point: its block index is (0, 0) and its block is the array. -/
theorem blk5_read (c : Dev nD) (t : Fin cfg0.N) (x : S1x1024.Idx) :
    (iblk m c 5 t : Vec Ideal S1x1024 _) x = (V m c main_call0_v34 : S1x1024.Idx → EReal) x := by
  unfold iblk
  rw [View.read_apply]
  show V m c main_call0_v34 _ = V m c main_call0_v34 x
  congr 1
  funext a
  apply Fin.ext
  match a with
  | ⟨0, _⟩ => show win0_5.index t (0 : Fin 2) * 1 + 1 * (x 0).val = (x 0).val; rw [(idx_facts t).2.2.2.2.2.2.2.2.2.2.1]; omega
  | ⟨1, _⟩ => show win0_5.index t (1 : Fin 2) * 1024 + 1 * (x 1).val = (x 1).val; rw [(idx_facts t).2.2.2.2.2.2.2.2.2.2.2.1]; omega

/-- Window 6 stages its whole array at every point: its block index is (0, 0) and its block is the array. -/
theorem blk6_read (c : Dev nD) (t : Fin cfg0.N) (x : S1x1000.Idx) :
    (iblk m c 6 t : Vec Ideal S1x1000 _) x = (V m c main_call0_v35 : S1x1000.Idx → EReal) x := by
  unfold iblk
  rw [View.read_apply]
  show V m c main_call0_v35 _ = V m c main_call0_v35 x
  congr 1
  funext a
  apply Fin.ext
  match a with
  | ⟨0, _⟩ => show win0_6.index t (0 : Fin 2) * 1 + 1 * (x 0).val = (x 0).val; rw [(idx_facts t).2.2.2.2.2.2.2.2.2.2.2.2.1]; omega
  | ⟨1, _⟩ => show win0_6.index t (1 : Fin 2) * 1000 + 1 * (x 1).val = (x 1).val; rw [(idx_facts t).2.2.2.2.2.2.2.2.2.2.2.2.2.1]; omega

/-! ## What a point writes back -/

theorem hz : (![0, 0] : Fin 2 → Nat) = fun _ => 0 := funext fun a => by fin_cases a <;> rfl

/-- Entry (p, q) of what point t stores is entry (256 t + p, q) of `result`. -/
theorem block_entry (c : Dev nD) (t : Fin cfg0.N) (p : Fin 256) (q : Fin 1000) (i : S16384x1000.Idx)
    (hi0 : (i 0).val = t.val * 256 + p.val) (hi1 : (i 1).val = q.val) :
    k0_pay1 (F := Ideal) (iblk m c 0 t) (iblk m c 1 t) (iblk m c 4 t) (iblk m c 2 t) (iblk m c 5 t) (iblk m c 3 t) (iblk m c 6 t)
        (ix2 p q : S256x1000.Idx) = result m c i := by
  refine (Cert.KernelIdeal.Body.pay_apply (iblk m c 0 t) (iblk m c 1 t) (iblk m c 4 t) (iblk m c 2 t) (iblk m c 5 t) (iblk m c 3 t)
    (iblk m c 6 t) p q).trans ?_
  show mlp _ _ _ _ _ _ _ = mlp _ _ _ _ _ _ _
  refine mlp_congr (fun k => ?_) (fun k j => ?_) (fun j => ?_) (fun k j => ?_) (fun j => ?_) (fun k => ?_) ?_
  · exact blk0_read m c t (ix2 p k : S256x3072.Idx) (ix2 (i 0) k : S16384x3072.Idx) hi0 rfl
  · exact (blk1_read m c t (ix2 k j : S3072x1024.Idx)).trans (W1_apply m c k j)
  · exact (blk4_read m c t (ix2 (0 : Fin 1) j : S1x1024.Idx)).trans (B1_apply m c j)
  · exact (blk2_read m c t (ix2 k j : S1024x1024.Idx)).trans (W2_apply m c k j)
  · exact (blk5_read m c t (ix2 (0 : Fin 1) j : S1x1024.Idx)).trans (B2_apply m c j)
  · exact (blk3_read m c t (ix2 k q : S1024x1000.Idx)).trans
      (W3_apply m c k q (headT i) (headC i) (by show (i 1).val / 100 = q.val / 100; rw [hi1]) (by show (i 1).val % 100 = q.val % 100; rw [hi1]))
  · exact (blk6_read m c t (ix2 (0 : Fin 1) q : S1x1000.Idx)).trans
      (B3_apply m c q (headT i) (headC i) (by show (i 1).val / 100 = q.val / 100; rw [hi1]) (by show (i 1).val % 100 = q.val % 100; rw [hi1]))

/-- What point t writes back is block t of `result`. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S256x3072) hz, View.ld_unit_zero (S := S3072x1024) hz, View.ld_unit_zero (S := S1024x1024) hz,
    View.ld_unit_zero (S := S1024x1000) hz, View.ld_unit_zero (S := S1x1024) hz, View.ld_unit_zero (S := S1x1000) hz]
  funext j
  show k0_pay1 (F := Ideal) (iblk m c 0 t) (iblk m c 1 t) (iblk m c 4 t) (iblk m c 2 t) (iblk m c 5 t) (iblk m c 3 t) (iblk m c 6 t) j
    = result m c (((cfg0.win 7).blk t).view.emb j)
  have hj : j = (ix2 (j 0) (j 1) : S256x1000.Idx) := eq_ix2 j
  rw [hj]
  refine block_entry m c t (j 0) (j 1) _ ?_ ?_
  · show win0_7.index t (0 : Fin 2) * 256 + 1 * (j 0).val = t.val * 256 + (j 0).val
    rw [(idx_facts t).2.2.2.2.2.2.2.2.2.2.2.2.2.2.1]; omega
  · show win0_7.index t (1 : Fin 2) * 1000 + 1 * (j 1).val = (j 1).val
    rw [(idx_facts t).2.2.2.2.2.2.2.2.2.2.2.2.2.2.2]; omega

/-! ## The row blocks tile the result -/

/-- An entry of the result is in point t's block iff each coordinate is in the block's range on its axis. -/
theorem mem_blk7 (t : Fin cfg0.N) (i : S16384x1000.Idx) :
    i ∈ ((cfg0.win 7).blk t).view.set ↔ ∀ a : Fin 2, win0_7.index t a * S256x1000.size a ≤ (i a).val ∧ (i a).val < win0_7.index t a * S256x1000.size a + S256x1000.size a := by
  show i ∈ ((View.whole main_v0).slice (win0_7.rect t)).set ↔ _
  rw [View.set_slice_whole, Rect.mem_set_unit]
  exact Iff.rfl

/-- Row r of the result is in the block of point r / 256. -/
theorem cover (i : S16384x1000.Idx) : ∃ t : Fin cfg0.N, (cfg0.win 7).flush t = true ∧ i ∈ ((cfg0.win 7).blk t).view.set := by
  have hi0 : (i 0).val < 16384 := (i 0).isLt
  have hi1 : (i 1).val < 1000 := (i 1).isLt
  have hN : cfg0.N = 64 := N_0
  let t : Fin cfg0.N := ⟨(i 0).val / 256, by rw [hN]; omega⟩
  refine ⟨t, flush0_7 t, ?_⟩
  rw [mem_blk7]
  have e0 : win0_7.index t (0 : Fin 2) = (i 0).val / 256 := (idx_facts t).2.2.2.2.2.2.2.2.2.2.2.2.2.2.1
  have e1 : win0_7.index t (1 : Fin 2) = 0 := (idx_facts t).2.2.2.2.2.2.2.2.2.2.2.2.2.2.2
  intro a
  match a with
  | ⟨0, _⟩ => show win0_7.index t (0 : Fin 2) * 256 ≤ (i 0).val ∧ (i 0).val < win0_7.index t (0 : Fin 2) * 256 + 256; rw [e0]; omega
  | ⟨1, _⟩ => show win0_7.index t (1 : Fin 2) * 1000 ≤ (i 1).val ∧ (i 1).val < win0_7.index t (1 : Fin 2) * 1000 + 1000; rw [e1]; omega

/-- So the result array ends holding `result`. -/
theorem final (c : Dev nD) : (dats m 0 c).arrAt 7 cfg0.N = result m c :=
  (dats m 0 c).arrAt_eq_of_cover 7 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Hand

end
-- ==== Proof.lean ====
/-
  A three-layer perceptron with per-channel quantised hidden weights: the fused kernel against the plain reference.

  Both programs first quantise the two hidden weight matrices row by row (scale = the row's largest absolute value over
  127, floored; entry / scale rounded to even, clamped to [-128, 127], times the scale) by the same host operations. The
  reference then uses `w + (q - w)` where the kernel uses `q`: equal because the precondition makes every entry of `w`
  a real number (Finite, Spec). After that both compute, for each input row, two affine layers each clamped at zero
  from below and a third affine layer whose 1000 outputs are the 10 heads' 100 classes side by side; the kernel does it
  on 64 blocks of 256 rows with the weights transposed beforehand, the reference on the whole arrays with an einsum and
  a reshape. Over the extended reals both are the one formula `MlpSpec.G` (RefSide for the reference, KernelPayload and
  KernelArrays for the kernel); only reordering of finite sums' index sets is involved, never their algebra.
  The three frames are the generated ones (the reference's is its generated run with the result dropped), and the kernel's
  idealization rewrote nothing.
-/
import proofs.«106709_j30940944400880_1_alg».proof.Defs
import proofs.«106709_j30940944400880_1_alg».proof.Proof.Gen.Kernel
import proofs.«106709_j30940944400880_1_alg».proof.Proof.Gen.Kernel.Skeleton
import proofs.«106709_j30940944400880_1_alg».proof.Proof.Gen.Kernel.Launch
import proofs.«106709_j30940944400880_1_alg».proof.Proof.Gen.Kernel.Points
import proofs.«106709_j30940944400880_1_alg».proof.Proof.Gen.Kernel.Frame
import proofs.«106709_j30940944400880_1_alg».proof.Proof.Gen.KernelIdeal
import proofs.«106709_j30940944400880_1_alg».proof.Proof.Gen.KernelIdeal.Skeleton
import proofs.«106709_j30940944400880_1_alg».proof.Proof.Gen.KernelIdeal.Launch
import proofs.«106709_j30940944400880_1_alg».proof.Proof.Gen.KernelIdeal.Points
import proofs.«106709_j30940944400880_1_alg».proof.Proof.Gen.KernelIdeal.Frame
import proofs.«106709_j30940944400880_1_alg».proof.Proof.Gen.ReferenceIdeal
import proofs.«106709_j30940944400880_1_alg».proof.Proof.Gen.Pre_finite_inputs
import proofs.«106709_j30940944400880_1_alg».proof.Proof.Gen.KernelIdeal.Value
import proofs.«106709_j30940944400880_1_alg».proof.Proof.Gen.ReferenceIdeal.Run
import proofs.«106709_j30940944400880_1_alg».proof.Proof.Gen.ReferenceIdeal.Read
import proofs.«106709_j30940944400880_1_alg».proof.Proof.Spec
import proofs.«106709_j30940944400880_1_alg».proof.Proof.Finite
import proofs.«106709_j30940944400880_1_alg».proof.Proof.RefSide
import proofs.«106709_j30940944400880_1_alg».proof.Proof.KernelPayload
import proofs.«106709_j30940944400880_1_alg».proof.Proof.KernelArrays
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, with finite entries, both programs end with the result array at `MlpSpec.G` of the input,
    the quantised hidden weights, and the remaining arguments. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨hw1, hw3⟩ := Cert.Pre_finite_inputs.Finite.weights_real _ _ _ _ _ _ _ (hpre c)
  rw [e0, e1, e2, e3, e4, e5, e6, Cert.ReferenceIdeal.Read.val_main_v46_eq]
  exact Cert.ReferenceIdeal.RefValue.ref_eq_G _ _ _ _ _ _ _ hw1 hw3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
